-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x64 : Shape := ⟨2, ![524288, 64]⟩
abbrev S256x64 : Shape := ⟨2, ![256, 64]⟩
abbrev S1x256 : Shape := ⟨2, ![1, 256]⟩
abbrev S1 : Shape := ⟨1, ![1]⟩
abbrev S_ : Shape := ⟨0, ![]⟩

class Facts : Prop where
  bcast_S_S524288x64 : S_.BroadcastsInDim S524288x64 (![] : Fin 0 → Fin S524288x64.rank)
  reducesTo_S524288x64_S_d0_1 : S524288x64.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S524288x64 .f32) (main_arg1 : FVec F S256x64 .f32) (main_arg2 : FVec F S1x256 .f32) (main_arg3 : FVec F S1 .f32) : IVec S_ 1 :=
  let main_v0 : FVec F S524288x64 .f32 := Host.absf main_arg0
  let main_cst : FVec F S_ .f32 := constant S_ .f32 0x7F800000#32
  let main_v1 : FVec F S524288x64 .f32 := broadcastInDim S524288x64 ![] bcast_S_S524288x64 main_cst
  let main_v2 : IVec S524288x64 1 := cmpf .olt main_v0 main_v1
  let main_c : IVec S_ 1 := constantI S_ 1 1#1
  let main_v3 : IVec S_ 1 := (fun x v => Host.reduce IntOp.andi x v reducesTo_S524288x64_S_d0_1 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S1x256 .f32 := Host.absf main_arg2
  let main_cst_2 : FVec F S_ .f32 := constant S_ .f32 0x7F800000#32
  let main_v10 : FVec F S1x256 .f32 := broadcastInDim S1x256 ![] bcast_S_S1x256 main_cst_2
  let main_v11 : IVec S1x256 1 := cmpf .olt main_v9 main_v10
  let main_c_3 : IVec S_ 1 := constantI S_ 1 1#1
  let main_v12 : IVec S_ 1 := (fun x v => Host.reduce IntOp.andi x v reducesTo_S1x256_S_d0_1 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S524288x64 : Shape := ⟨2, ![524288, 64]⟩
abbrev S256x64 : Shape := ⟨2, ![256, 64]⟩
abbrev S1x256 : Shape := ⟨2, ![1, 256]⟩
abbrev S1 : Shape := ⟨1, ![1]⟩
abbrev S524288x1 : Shape := ⟨2, ![524288, 1]⟩
abbrev S4096x64 : Shape := ⟨2, ![4096, 64]⟩
abbrev S4096x1 : Shape := ⟨2, ![4096, 1]⟩
abbrev S4096 : Shape := ⟨1, ![4096]⟩
abbrev S256 : Shape := ⟨1, ![256]⟩
abbrev S64x256 : Shape := ⟨2, ![64, 256]⟩
abbrev S4096x256 : Shape := ⟨2, ![4096, 256]⟩
abbrev S256x1 : Shape := ⟨2, ![256, 1]⟩
abbrev S1x1 : Shape := ⟨2, ![1, 1]⟩

abbrev nBuf : Space → Nat
  | .hbm => 5
  | .vmem => 7
  | .smem => 0
  | _ => 0

abbrev bufTy : (tb : Table) → Fin (tcTables nBuf tb) → BufTy
  | .hbm, ⟨0, _⟩ => ⟨S524288x64, .f32⟩
  | .hbm, ⟨1, _⟩ => ⟨S256x64, .f32⟩
  | .hbm, ⟨2, _⟩ => ⟨S1x256, .f32⟩
  | .hbm, ⟨3, _⟩ => ⟨S1, .f32⟩
  | .hbm, ⟨4, _⟩ => ⟨S524288x1, .f32⟩
  | .local _ .vmem, ⟨0, _⟩ => ⟨S4096x64, .f32⟩
  | .local _ .vmem, ⟨1, _⟩ => ⟨S4096x64, .f32⟩
  | .local _ .vmem, ⟨2, _⟩ => ⟨S256x64, .f32⟩
  | .local _ .vmem, ⟨3, _⟩ => ⟨S1x256, .f32⟩
  | .local _ .vmem, ⟨4, _⟩ => ⟨S1, .f32⟩
  | .local _ .vmem, ⟨5, _⟩ => ⟨S4096x1, .f32⟩
  | .local _ .vmem, ⟨6, _⟩ => ⟨S4096x1, .f32⟩
  | _, _ => ⟨S524288x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S4096x64_S4096x64_0_0 : ∀ a, (![0, 0] : Fin 2 → Nat) a + S4096x64.size a ≤ S4096x64.size a
  h_S4096x64 : 0 < S4096x64.numel
  inb_S256x64_S256x64_0_0 : ∀ a, (![0, 0] : Fin 2 → Nat) a + S256x64.size a ≤ S256x64.size a
  h_S256x64 : 0 < S256x64.numel
  inb_S1x256_S1x256_0_0 : ∀ a, (![0, 0] : Fin 2 → Nat) a + S1x256.size a ≤ S1x256.size a
  h_S1x256 : 0 < S1x256.numel
  inb_S1_S1_0 : ∀ a, (![0] : Fin 1 → Nat) a + S1.size a ≤ S1.size a
  h_S1 : 0 < S1.numel
  bitsLt_bf16_f32 : FTy.bits .bf16 < FTy.bits .f32
  reduces_S4096x64_S4096 : S4096x64.Reduces [1] S4096
  shapeCasts_S4096_S4096x1 : S4096.ShapeCasts S4096x1
  reduces_S256x64_S256 : S256x64.Reduces [1] S256
  transposes_S256x64_p1_0_S64x256 : S256x64.Transposes [1, 0] S64x256
  broadcasts_S4096x1_S4096x256 : S4096x1.Broadcasts S4096x256
  shapeCasts_S256_S1x256 : S256.ShapeCasts S1x256
  broadcasts_S1x256_S4096x256 : S1x256.Broadcasts S4096x256
  transposes_S1x256_p1_0_S256x1 : S1x256.Transposes [1, 0] S256x1
  shapeCasts_S1_S1x1 : S1.ShapeCasts S1x1
  broadcasts_S1x1_S4096x1 : S1x1.Broadcasts S4096x1
  inb_S4096x1_S4096x1_0_0 : ∀ a, (![0, 0] : Fin 2 → Nat) a + S4096x1.size a ≤ S4096x1.size a
  h_S4096x1 : 0 < S4096x1.numel
  dot_S4096x64_S64x256_S4096x256_1_0_0_1_n_n_wf : DotDims.WF S4096x64 S64x256 S4096x256 [1] [0] [0] [1] [] []
  dot_S4096x256_S256x1_S4096x1_1_0_0_1_n_n_wf : DotDims.WF S4096x256 S256x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S524288x64.size a
  hwx0_0 : ∀ i : grid0.Coords, EltTy.bits .f32 = 32 ∨ (Rect.block (s := S524288x64) S4096x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1.size a ≤ S1.size a
  hwx0_3 : ∀ i : grid0.Coords, EltTy.bits .f32 = 32 ∨ (Rect.block (s := S1) S1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x1.size a ≤ S524288x1.size a
  hwx0_4 : ∀ i : grid0.Coords, EltTy.bits .f32 = 32 ∨ (Rect.block (s := S524288x1) S4096x1.size (cc0_transform_4 i) (hinb0_4 i)).WholeWords (EltTy.packing .f32)

variable [Facts₀]

def dot_S4096x64_S64x256_S4096x256_1_0_0_1_n_n : DotDims S4096x64 S64x256 S4096x256 where
  lhsContracting := [1]
  rhsContracting := [0]
  lhsNonContracting := [0]
  rhsNonContracting := [1]
  lhsBatch := []
  rhsBatch := []
  wf := dot_S4096x64_S64x256_S4096x256_1_0_0_1_n_n_wf
def dot_S4096x256_S256x1_S4096x1_1_0_0_1_n_n : DotDims S4096x256 S256x1 S4096x1 where
  lhsContracting := [1]
  rhsContracting := [0]
  lhsNonContracting := [0]
  rhsNonContracting := [1]
  lhsBatch := []
  rhsBatch := []
  wf := dot_S4096x256_S256x1_S4096x1_1_0_0_1_n_n_wf

abbrev win0_0 : Pipeline.Window sig grid0 :=
  Pipeline.Window.ofSpec (Memref.whole main_arg0) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S4096x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S524288x64 : Shape := ⟨2, ![524288, 64]⟩
abbrev S256x64 : Shape := ⟨2, ![256, 64]⟩
abbrev S1x256 : Shape := ⟨2, ![1, 256]⟩
abbrev S1 : Shape := ⟨1, ![1]⟩
abbrev S_ : Shape := ⟨0, ![]⟩
abbrev S524288 : Shape := ⟨1, ![524288]⟩
abbrev S524288x1 : Shape := ⟨2, ![524288, 1]⟩
abbrev S256 : Shape := ⟨1, ![256]⟩
abbrev S524288x256 : Shape := ⟨2, ![524288, 256]⟩
abbrev S256x1 : Shape := ⟨2, ![256, 1]⟩
abbrev S1x1 : Shape := ⟨2, ![1, 1]⟩

abbrev nBuf : Space → Nat
  | .hbm => 30
  | .vmem => 0
  | .smem => 0
  | _ => 0

abbrev bufTy : (tb : Table) → Fin (tcTables nBuf tb) → BufTy
  | .hbm, ⟨0, _⟩ => ⟨S524288x64, .f32⟩
  | .hbm, ⟨1, _⟩ => ⟨S256x64, .f32⟩
  | .hbm, ⟨2, _⟩ => ⟨S1x256, .f32⟩
  | .hbm, ⟨3, _⟩ => ⟨S1, .f32⟩
  | .hbm, ⟨4, _⟩ => ⟨S524288x64, .f32⟩
  | .hbm, ⟨5, _⟩ => ⟨S_, .f32⟩
  | .hbm, ⟨6, _⟩ => ⟨S524288, .f32⟩
  | .hbm, ⟨7, _⟩ => ⟨S524288x1, .f32⟩
  | .hbm, ⟨8, _⟩ => ⟨S256x64, .f32⟩
  | .hbm, ⟨9, _⟩ => ⟨S_, .f32⟩
  | .hbm, ⟨10, _⟩ => ⟨S256, .f32⟩
  | .hbm, ⟨11, _⟩ => ⟨S524288x256, .f32⟩
  | .hbm, ⟨12, _⟩ => ⟨S_, .f32⟩
  | .hbm, ⟨13, _⟩ => ⟨S524288x256, .f32⟩
  | .hbm, ⟨14, _⟩ => ⟨S524288x256, .f32⟩
  | .hbm, ⟨15, _⟩ => ⟨S524288x256, .f32⟩
  | .hbm, ⟨16, _⟩ => ⟨S524288x256, .f32⟩
  | .hbm, ⟨17, _⟩ => ⟨S1x256, .f32⟩
  | .hbm, ⟨18, _⟩ => ⟨S524288x256, .f32⟩
  | .hbm, ⟨19, _⟩ => ⟨S524288x256, .f32⟩
  | .hbm, ⟨20, _⟩ => ⟨S_, .f32⟩
  | .hbm, ⟨21, _⟩ => ⟨S524288x256, .f32⟩
  | .hbm, ⟨22, _⟩ => ⟨S524288x256, .f32⟩
  | .hbm, ⟨23, _⟩ => ⟨S524288x256, .f32⟩
  | .hbm, ⟨24, _⟩ => ⟨S524288x256, .f32⟩
  | .hbm, ⟨25, _⟩ => ⟨S256x1, .f32⟩
  | .hbm, ⟨26, _⟩ => ⟨S524288x1, .f32⟩
  | .hbm, ⟨27, _⟩ => ⟨S1x1, .f32⟩
  | .hbm, ⟨28, _⟩ => ⟨S524288x1, .f32⟩
  | .hbm, ⟨29, _⟩ => ⟨S524288x1, .f32⟩
  | _, _ => ⟨S524288x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]

class Facts₀ : Prop where
  reducesTo_S524288x64_S524288_d1 : S524288x64.ReducesTo [1] S524288
  h_S_ : 0 < S_.numel
  bcast_S524288_S524288x1_0 : S524288.BroadcastsInDim S524288x1 (![0] : Fin 1 → Fin S524288x1.rank)
  reducesTo_S256x64_S256_d1 : S256x64.ReducesTo [1] S256
  bcast_S_S524288x256 : S_.BroadcastsInDim S524288x256 (![] : Fin 0 → Fin S524288x256.rank)
  bcast_S524288x1_S524288x256_0_1 : S524288x1.BroadcastsInDim S524288x256 (![0, 1] : Fin 2 → Fin S524288x256.rank)
  bcast_S256_S1x256_1 : S256.BroadcastsInDim S1x256 (![1] : Fin 1 → Fin S1x256.rank)
  bcast_S1x256_S524288x256_0_1 : S1x256.BroadcastsInDim S524288x256 (![0, 1] : Fin 2 → Fin S524288x256.rank)
  transposes_S1x256_S256x1_1_0 : S1x256.Transposes [1, 0] S256x1
  bcast_S1_S1x1_1 : S1.BroadcastsInDim S1x1 (![1] : Fin 1 → Fin S1x1.rank)
  bcast_S1x1_S524288x1_0_1 : S1x1.BroadcastsInDim S524288x1 (![0, 1] : Fin 2 → Fin S524288x1.rank)
  dot_S524288x64_S256x64_S524288x256_1_1_0_0_n_n_wf : DotDims.WF S524288x64 S256x64 S524288x256 [1] [1] [0] [0] [] []
  dot_S524288x256_S256x1_S524288x1_1_0_0_1_n_n_wf : DotDims.WF S524288x256 S256x1 S524288x1 [1] [0] [0] [1] [] []

variable [Facts₀]

def dot_S524288x64_S256x64_S524288x256_1_1_0_0_n_n : DotDims S524288x64 S256x64 S524288x256 where
  lhsContracting := [1]
  rhsContracting := [1]
  lhsNonContracting := [0]
  rhsNonContracting := [0]
  lhsBatch := []
  rhsBatch := []
  wf := dot_S524288x64_S256x64_S524288x256_1_1_0_0_n_n_wf
def dot_S524288x256_S256x1_S524288x1_1_0_0_1_n_n : DotDims S524288x256 S256x1 S524288x1 where
  lhsContracting := [1]
  rhsContracting := [0]
  lhsNonContracting := [0]
  rhsNonContracting := [1]
  lhsBatch := []
  rhsBatch := []
  wf := dot_S524288x256_S256x1_S524288x1_1_0_0_1_n_n_wf

class Facts : Prop extends Facts₀ where

variable [Facts]
-- ==== Proof.Rbf.lean ====
/-
  The radial-basis-function head, as one function of the argument arrays, on the extended reals.

  For a row `x` of 64 features and 256 centres `C h`, the squared distance is taken in its expanded form
  `‖x‖² − 2·⟨x, C h⟩ + ‖C h‖²` and clamped below at zero; the feature is `exp` of its negative; the head is the
  weighted sum of the 256 features plus a bias. Row `n` of the result depends on row `n` of the data only, so the
  whole result is this row function applied to every row.

  The factor two and the clamp's zero stay the words both programs print (the same word on both sides denotes the
  same extended real, whatever it is); only a zero that is ADDED or SUBTRACTED FROM is evaluated (`zero_init_add`,
  `zero_sub_word`).
-/
import Idealize.ShloMosaic.PureOps.Ideal.Laws
import Idealize.ShloMosaic.Lib.ValueIdx

noncomputable section

open scoped BigOperators

namespace Cert.Rbf

open Idealize.ShloMosaic Idealize.ShloMosaic.ValueIdx

/-- The clamped squared distance of a row `x` to a centre `c`, in expanded form. -/
def dist2 (x c : Fin 64 → EReal) : EReal :=
  max ((∑ d : Fin 64, x d * x d) - Ideal.ofBits .f32 0x40000000#32 * (∑ d : Fin 64, x d * c d) + ∑ d : Fin 64, c d * c d)
    (Ideal.ofBits .f32 0x00000000#32)

/-- The head at one row: the weighted sum of the Gaussian features of the row's distances to the centres, plus the bias. -/
def row (x : Fin 64 → EReal) (C : Fin 256 → Fin 64 → EReal) (w : Fin 256 → EReal) (b : EReal) : EReal :=
  (∑ h : Fin 256, Ideal.exp (-(dist2 x (C h))) * w h) + b

/-- The whole result: entry `(n, 0)` is the head at row `n` of the data. -/
def G (X : (⟨2, ![524288, 64]⟩ : Shape).Idx → EReal) (C : (⟨2, ![256, 64]⟩ : Shape).Idx → EReal)
    (W : (⟨2, ![1, 256]⟩ : Shape).Idx → EReal) (B : (⟨1, ![1]⟩ : Shape).Idx → EReal) :
    (⟨2, ![524288, 1]⟩ : Shape).Idx → EReal :=
  fun i => row (fun d => X (ix2 (i 0) d)) (fun h d => C (ix2 h d)) (fun h => W (ix2 (0 : Fin 1) h)) (B (ix1 (0 : Fin 1)))

/-- A sum started from the zero word is the sum. -/
theorem zero_init_add (s : EReal) : Ideal.ofBits .f32 0x00000000#32 + s = s := by
  rw [Ideal.ofBits_zero_f32, zero_add]

/-- The zero word less `a` is `-a`, at the infinities too. -/
theorem zero_sub_word (a : EReal) : Ideal.ofBits .f32 0x00000000#32 - a = -a := by
  rw [Ideal.ofBits_zero_f32, zero_sub]

end Cert.Rbf

end
-- ==== Proof.LibPlainMatmul.lean ====
/-
  Two general facts about vector operations read at an entry, at the ideal instance (floats are extended reals).

  * A plain `M × K` by `K × N` matrix product on the matrix unit into a zero accumulator, read at entry `(r, c)`,
    is the sum over `k` of `x[r, k] · w[k, c]`: the unit's dimension numbers contract the left operand's second axis
    with the right operand's first, so re-indexing the one-axis contraction by its coordinate gives the textbook sum.
  * A column (`[a, 1]`) broadcast to `[a, b]`, read at `(p, c)`, is the column's entry at row `p`.
-/
import Idealize.ShloMosaic.PureOps.Ideal.Laws
import Idealize.ShloMosaic.Lib.ValueIdx
import Idealize.ShloMosaic.Lib.Pipeline.Value

noncomputable section

open scoped BigOperators

namespace Cert.Gnn

open Idealize.ShloMosaic Idealize.ShloMosaic.ValueIdx

/-- The left operand's row coordinate is the result's row coordinate. -/
theorem plain_lhs_row (M K N : Nat) (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The right operand's column coordinate is the result's column coordinate. -/
theorem plain_rhs_col (M K N : Nat) (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- A plain matrix product into a zero accumulator, read at an entry, is the sum over the contracted index of the
    operands' products. -/
theorem plain_matmul_apply {φ₁ φ₂ : FTy} (M K N : Nat) (prec : Option ContractPrecision)
    (x : FVec Ideal ⟨2, ![M, K]⟩ φ₁) (w : FVec Ideal ⟨2, ![K, N]⟩ φ₂) (j : (⟨2, ![M, N]⟩ : Shape).Idx) :
    FloatOps.matmul (DotDims.plain M K N) prec x w (constant ⟨2, ![M, N]⟩ .f32 0x00000000#32) j
      = ∑ k : Fin K, x (ix2 (j 0) k) * w (ix2 k (j 1)) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact plain_lhs_row M K N _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact plain_rhs_col M K N _ _)
  rw [el, er]
  rfl

/-- A column broadcast over a row axis: an `[a, 1]` array broadcast to `[a, b]` reads, at `(p, c)`, the column's
    entry at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Gnn

end
-- ==== Proof.LibRank2.lean ====
/-
  General facts about vector operations on small-rank arrays, read at explicit coordinates, at the ideal instance
  (floats are extended reals) where arithmetic is involved.

  * A plain matrix product into a zero accumulator at `(r, c)` is `∑ k, x[r, k] · w[k, c]`.
  * Casts that add or drop unit axes read the same entry: `[a] → [a, 1]`, `[1, 1, a] → [a]`, `[a] → [1, 1, a]`.
  * A sum or a maximum over the second axis of a rank-2 array, read at row `i`, runs over that row; a sum over the
    first axis, read at column `k`, runs over that column.
  * Two arrays joined along the second axis: a column below the first extent comes from the first, the others from
    the second, the first extent less. The same for rank-3 arrays joined along the third axis.
  * The exponential acts entry by entry.
-/
import proofs.«137323_j16707422782018_1_alg».proof.Proof.LibPlainMatmul
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Lib2

open Idealize.ShloMosaic Idealize.ShloMosaic.ValueIdx

variable {α : Type}

/-- A plain matrix product into a zero accumulator, at explicit coordinates. -/
theorem plain_matmul_ix2 {φ₁ φ₂ : FTy} (M K N : Nat) (prec : Option ContractPrecision)
    (x : FVec Ideal ⟨2, ![M, K]⟩ φ₁) (w : FVec Ideal ⟨2, ![K, N]⟩ φ₂) (r : Fin M) (c : Fin N) :
    FloatOps.matmul (DotDims.plain M K N) prec x w (constant ⟨2, ![M, N]⟩ .f32 0x00000000#32) (ix2 r c)
      = ∑ k : Fin K, x (ix2 r k) * w (ix2 k c) :=
  Cert.Gnn.plain_matmul_apply M K N prec x w (ix2 r c)

/-- A vector cast to a column reads, at `(i, 0)`, the vector's entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, 1, a]` array cast to a vector reads, at `j`, the operand at `(0, 0, j)`. -/
theorem shapeCast_11a_a_apply {a : ℕ} (x : (⟨3, ![1, 1, a]⟩ : Shape).Idx → α) (h : (⟨3, ![1, 1, a]⟩ : Shape).ShapeCasts ⟨1, ![a]⟩)
    (j : Fin a) : shapeCast ⟨1, ![a]⟩ x h (ix1 j) = x (ix3 (0 : Fin 1) (0 : Fin 1) j) :=
  shapeCast_apply x h _ _ (by
    rw [Shape.rowMajor_val_three, Shape.rowMajor_val_one]
    show (0 * 1 + 0) * a + j.val = j.val
    simp)

/-- A vector cast to `[1, 1, a]` reads, at `(u, v, k)`, the vector's entry `k`. -/
theorem shapeCast_a_11a_apply {a : ℕ} (x : (⟨1, ![a]⟩ : Shape).Idx → α) (h : (⟨1, ![a]⟩ : Shape).ShapeCasts ⟨3, ![1, 1, a]⟩)
    (u v : Fin 1) (k : Fin a) : shapeCast ⟨3, ![1, 1, a]⟩ x h (ix3 u v k) = x (ix1 k) :=
  shapeCast_apply x h _ _ (by
    have hu : u.val = 0 := by omega
    have hv : v.val = 0 := by omega
    rw [Shape.rowMajor_val_one, Shape.rowMajor_val_three]
    show k.val = (u.val * 1 + v.val) * a + k.val
    rw [hu, hv]; simp)

/-- The index a reduction over the second axis inserts at row `i`, coordinate `k`. -/
theorem lift_axis1 {A B : ℕ} (h : Shape.Reduces ⟨2, ![A, B]⟩ [1] ⟨1, ![A]⟩) (i : Fin A) (k : Fin B) :
    h.lift (ix1 i) k = ix2 i k :=
  funext fun d => Fin.ext (by match d with | ⟨0, _⟩ => rfl | ⟨1, _⟩ => rfl)

/-- The index a reduction over the first axis inserts at column `k`, coordinate `i`. -/
theorem lift_axis0 {A B : ℕ} (h : Shape.Reduces ⟨2, ![A, B]⟩ [0] ⟨1, ![B]⟩) (k : Fin B) (i : Fin A) :
    h.lift (ix1 k) i = ix2 i k :=
  funext fun d => Fin.ext (by match d with | ⟨0, _⟩ => rfl | ⟨1, _⟩ => rfl)

/-- A sum over the second axis, at row `i`. -/
theorem multiReduction_add_axis1 {φ : FTy} {A B : ℕ} (src : FVec Ideal ⟨2, ![A, B]⟩ φ) (acc : BitVec φ.bits)
    (h : Shape.Reduces ⟨2, ![A, B]⟩ [1] ⟨1, ![A]⟩) (hφ : FKind.Formats φ) (hacc : acc = FKind.add.neutral φ hφ) (i : Fin A) :
    multiReduction .add [1] ⟨1, ![A]⟩ src acc h hφ hacc (ix1 i) = ∑ k : Fin B, src (ix2 i k) :=
  (Ideal.multiReduction_add_single src acc h hφ hacc (ix1 i)).trans
    (Finset.sum_congr rfl fun k _ => congrArg src (lift_axis1 h i k))

/-- A sum over the first axis, at column `k`. -/
theorem multiReduction_add_axis0 {φ : FTy} {A B : ℕ} (src : FVec Ideal ⟨2, ![A, B]⟩ φ) (acc : BitVec φ.bits)
    (h : Shape.Reduces ⟨2, ![A, B]⟩ [0] ⟨1, ![B]⟩) (hφ : FKind.Formats φ) (hacc : acc = FKind.add.neutral φ hφ) (k : Fin B) :
    multiReduction .add [0] ⟨1, ![B]⟩ src acc h hφ hacc (ix1 k) = ∑ i : Fin A, src (ix2 i k) :=
  (Ideal.multiReduction_add_single src acc h hφ hacc (ix1 k)).trans
    (Finset.sum_congr rfl fun i _ => congrArg src (lift_axis0 h k i))

/-- A maximum over the second axis, at row `i`: the fold of `max` from the accumulator's value over the row. -/
theorem multiReduction_max_axis1 {φ : FTy} {A B : ℕ} (src : FVec Ideal ⟨2, ![A, B]⟩ φ) (acc : BitVec φ.bits)
    (h : Shape.Reduces ⟨2, ![A, B]⟩ [1] ⟨1, ![A]⟩) (hφ : FKind.Formats φ) (hacc : acc = FKind.maximumf.neutral φ hφ) (i : Fin A) :
    multiReduction .maximumf [1] ⟨1, ![A]⟩ src acc h hφ hacc (ix1 i)
      = (Finset.univ : Finset (Fin B)).fold max (Ideal.ofBits φ acc) (fun k => src (ix2 i k)) :=
  (Ideal.multiReduction_maximumf_single src acc h hφ hacc (ix1 i)).trans
    (congrArg (fun g => (Finset.univ : Finset (Fin B)).fold max (Ideal.ofBits φ acc) g)
      (funext fun k => congrArg src (lift_axis1 h i k)))

/-- Two rank-2 arrays joined along the second axis, read at `(i, q)`. -/
theorem concatenate_cols_apply {a n1 n2 n : ℕ} (x₁ : (⟨2, ![a, n1]⟩ : Shape).Idx → α) (x₂ : (⟨2, ![a, n2]⟩ : Shape).Idx → α)
    (h : Shape.Concatenates [⟨2, ![a, n1]⟩, ⟨2, ![a, n2]⟩] ⟨2, ![a, n]⟩ 1) (hn : n = n1 + n2) (i : Fin a) (q : Fin n) :
    concatenate ⟨2, ![a, n]⟩ 1 [⟨⟨2, ![a, n1]⟩, x₁⟩, ⟨⟨2, ![a, n2]⟩, x₂⟩] h (ix2 i q)
      = if hq : q.val < n1 then x₁ (ix2 i ⟨q.val, hq⟩) else x₂ (ix2 i ⟨q.val - n1, by have := q.isLt; omega⟩) := by
  split
  · next hq =>
    exact concatenate_pair_apply_left 1 x₁ x₂ h (ix2 i q) rfl (ix2 i ⟨q.val, hq⟩)
      (fun b => match b with | ⟨0, _⟩ => rfl | ⟨1, _⟩ => rfl)
  · next hq =>
    exact concatenate_pair_apply_right 1 x₁ x₂ h (ix2 i q) rfl rfl (ix2 i ⟨q.val - n1, by have := q.isLt; omega⟩)
      (fun b hb => match b, hb with | ⟨0, _⟩, _ => rfl | ⟨1, _⟩, hb => absurd rfl hb)
      (by show (q.val - n1) + n1 = q.val; omega)

/-- Two rank-3 arrays joined along the third axis, read at `(b, i, q)`. -/
theorem concatenate_axis2_apply {m a n1 n2 n : ℕ} (x₁ : (⟨3, ![m, a, n1]⟩ : Shape).Idx → α) (x₂ : (⟨3, ![m, a, n2]⟩ : Shape).Idx → α)
    (h : Shape.Concatenates [⟨3, ![m, a, n1]⟩, ⟨3, ![m, a, n2]⟩] ⟨3, ![m, a, n]⟩ 2) (hn : n = n1 + n2) (b : Fin m) (i : Fin a) (q : Fin n) :
    concatenate ⟨3, ![m, a, n]⟩ 2 [⟨⟨3, ![m, a, n1]⟩, x₁⟩, ⟨⟨3, ![m, a, n2]⟩, x₂⟩] h (ix3 b i q)
      = if hq : q.val < n1 then x₁ (ix3 b i ⟨q.val, hq⟩) else x₂ (ix3 b i ⟨q.val - n1, by have := q.isLt; omega⟩) := by
  split
  · next hq =>
    exact concatenate_pair_apply_left 2 x₁ x₂ h (ix3 b i q) rfl (ix3 b i ⟨q.val, hq⟩)
      (fun d => match d with | ⟨0, _⟩ => rfl | ⟨1, _⟩ => rfl | ⟨2, _⟩ => rfl)
  · next hq =>
    exact concatenate_pair_apply_right 2 x₁ x₂ h (ix3 b i q) rfl rfl (ix3 b i ⟨q.val - n1, by have := q.isLt; omega⟩)
      (fun d hd => match d, hd with | ⟨0, _⟩, _ => rfl | ⟨1, _⟩, _ => rfl | ⟨2, _⟩, hd => absurd rfl hd)
      (by show (q.val - n1) + n1 = q.val; omega)

/-- The exponential acts entry by entry. -/
theorem exp_apply {s : Shape} {φ : FTy} (a : FVec Ideal s φ) (i : s.Idx) : exp a i = Ideal.exp (a i) := rfl

end Cert.Lib2

end
-- ==== Proof.KernelRow.lean ====
/-
  What the kernel body stores, read entry by entry: entry `(p, 0)` of the stored block is the radial-basis-function
  head at row `p` of the loaded data block.

  The body squares and sums each data row and each centre along the feature axis, multiplies the data block by the
  transposed centres on the matrix unit (a change of float format is the identity on the extended reals, and a product
  into a zero accumulator is the plain sum of products), forms the clamped distance, subtracts it from zero, takes
  the exponential, multiplies the features by the transposed weights and adds the bias. Read at `(p, h)`, each stage
  depends on row `p` of the block and centre `h` only.
-/
import proofs.«137323_j16707422782018_1_alg».proof.Proof.Gen.KernelIdeal.Skeleton
import proofs.«137323_j16707422782018_1_alg».proof.Proof.Rbf
import proofs.«137323_j16707422782018_1_alg».proof.Proof.LibRank2
import Idealize.ShloMosaic.Lib.ValueLayout

noncomputable section

open scoped BigOperators

namespace Cert.KernelIdeal.RowValue

open Cert.KernelIdeal Cert.KernelIdeal.Gen Idealize.ShloMosaic Idealize.ShloMosaic.ValueIdx

variable (x0 : FVec Ideal S4096x64 .f32) (x1 : FVec Ideal S256x64 .f32) (x2 : FVec Ideal S1x256 .f32) (x3 : FVec Ideal S1 .f32)

/-- The squared norm of row `p` of the data block, kept as a column. -/
theorem xsq (h1 : S4096x64.Reduces [1] S4096) (hφ : FKind.Formats .f32) (hacc : (0x00000000#32 : BitVec 32) = FKind.add.neutral .f32 hφ)
    (h2 : S4096.ShapeCasts S4096x1) (p : Fin 4096) (u : Fin 1) :
    shapeCast S4096x1 (multiReduction .add [1] S4096 (mulf x0 x0) 0x00000000#32 h1 hφ hacc) h2 (ix2 p u)
      = ∑ d : Fin 64, x0 (ix2 p d) * x0 (ix2 p d) :=
  (Cert.Lib2.shapeCast_a_a1_apply _ h2 p u).trans (Cert.Lib2.multiReduction_add_axis1 (mulf x0 x0) _ h1 hφ hacc p)

/-- The squared norm of centre `h`, kept as a row. -/
theorem csq (h1 : S256x64.Reduces [1] S256) (hφ : FKind.Formats .f32) (hacc : (0x00000000#32 : BitVec 32) = FKind.add.neutral .f32 hφ)
    (h2 : S256.ShapeCasts S1x256) (u : Fin 1) (h : Fin 256) :
    shapeCast S1x256 (multiReduction .add [1] S256 (mulf x1 x1) 0x00000000#32 h1 hφ hacc) h2 (ix2 u h)
      = ∑ d : Fin 64, x1 (ix2 h d) * x1 (ix2 h d) :=
  (shapeCast_a_1a_apply _ h2 u h).trans (Cert.Lib2.multiReduction_add_axis1 (mulf x1 x1) _ h1 hφ hacc h)

/-- The inner product of row `p` of the data block with centre `h`: the matrix unit's product of the block with the
    transposed centres, both narrowed to bf16 first. -/
theorem inner (hb : FTy.bf16.bits < FTy.f32.bits) (ht : S256x64.Transposes [1, 0] S64x256) (p : Fin 4096) (h : Fin 256) :
    matmul dot_S4096x64_S64x256_S4096x256_1_0_0_1_n_n none (truncf .bf16 x0 hb) (transpose S64x256 [1, 0] (truncf .bf16 x1 hb) ht)
        (constant S4096x256 .f32 0x00000000#32) (ix2 p h)
      = ∑ d : Fin 64, x0 (ix2 p d) * x1 (ix2 h d) :=
  (Cert.Lib2.plain_matmul_ix2 4096 64 256 none (truncf .bf16 x0 hb) (transpose S64x256 [1, 0] (truncf .bf16 x1 hb) ht) p h).trans
    (Finset.sum_congr rfl fun d _ => congrArg (x0 (ix2 p d) * ·) (transpose_ix2_apply (truncf .bf16 x1 hb) ht d h))

/-- THE STORED BLOCK AT ROW `p`: the head at that row of the loaded data block, with the loaded centres, weights and bias. -/
theorem pay_row (p : Fin 4096) (u : Fin 1) :
    k0_pay1 (F := Ideal) x0 x1 x2 x3 (ix2 p u)
      = Rbf.row (fun d => x0 (ix2 p d)) (fun h d => x1 (ix2 h d)) (fun h => x2 (ix2 (0 : Fin 1) h)) (x3 (ix1 (0 : Fin 1))) := by
  obtain rfl : u = 0 := Subsingleton.elim _ _
  unfold k0_pay1 Rbf.row
  dsimp only
  refine (addf_apply _ _ _).trans (congrArg₂ (· + ·) ?_ ?_)
  · -- the features against the transposed weights
    refine (Cert.Lib2.plain_matmul_ix2 4096 256 1 none _ _ p 0).trans (Finset.sum_congr rfl fun h _ => ?_)
    refine congrArg₂ (· * ·) ?_ (transpose_ix2_apply _ _ h 0)
    refine (truncf_apply (φ := .f32) (ψ := .bf16) _ _ _).trans ((Cert.Lib2.exp_apply _ _).trans (congrArg Ideal.exp ?_))
    refine (subf_apply _ _ _).trans ((Rbf.zero_sub_word _).trans (congrArg Neg.neg ?_))
    unfold Rbf.dist2
    refine (maximumf_apply _ _ _).trans (congrArg₂ max ?_ rfl)
    refine (addf_apply _ _ _).trans (congrArg₂ (· + ·) ?_ ?_)
    · refine (subf_apply _ _ _).trans (congrArg₂ (· - ·) ?_ ?_)
      · exact (Cert.Gnn.broadcastTo_a1_ab_apply _ _ p h).trans (xsq x0 _ _ _ _ p 0)
      · exact (mulf_apply _ _ _).trans (congrArg (Ideal.ofBits .f32 0x40000000#32 * ·) (inner x0 x1 _ _ p h))
    · exact (broadcastTo_1b_ab_apply _ _ p h).trans (csq x1 _ _ _ _ 0 h)
  · -- the bias, one word broadcast down the column
    exact (broadcastTo_1b_ab_apply _ _ p 0).trans (Cert.Lib2.shapeCast_a_a1_apply x3 _ 0 0)

end Cert.KernelIdeal.RowValue

end
-- ==== Proof.KernelArr.lean ====
/-
  From the blocks to the whole result array.

  Grid point `t` loads rows `4096·t … 4096·t + 4095` of the data (all 64 features), the whole centres, weights and
  bias, and writes back rows `4096·t … 4096·t + 4095` of the one result column. Entry `(p, 0)` of what it writes is the
  head at row `p` of its data block, which is row `4096·t + p` of the data: so point `t` writes block `t` of the one
  whole-array function `Rbf.G` of the argument arrays. The 128 blocks cover the 524288 rows (row `r` lies in block
  `r / 4096`), so the result array ends holding `Rbf.G` of the arguments.
-/
import proofs.«137323_j16707422782018_1_alg».proof.Proof.Gen.KernelIdeal.Value
import proofs.«137323_j16707422782018_1_alg».proof.Proof.KernelRow

noncomputable section

open scoped BigOperators

namespace Cert.KernelIdeal.ArrValue

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zeros2 : (![0, 0] : Fin 2 → Nat) = fun _ => 0 := funext fun a => by fin_cases a <;> rfl
theorem zeros1 : (![0] : Fin 1 → Nat) = fun _ => 0 := funext fun a => by fin_cases a <;> rfl

/-- One entry of a stored block is one entry of the whole-array function, when the data block's row is the
    data array's row and the other three blocks are their whole arrays. -/
theorem block_entry (x0 : FVec Ideal S4096x64 .f32) (x1 : FVec Ideal S256x64 .f32) (x2 : FVec Ideal S1x256 .f32) (x3 : FVec Ideal S1 .f32)
    (X : S524288x64.Idx → EReal) (C : S256x64.Idx → EReal) (W : S1x256.Idx → EReal) (B : S1.Idx → EReal)
    (j : S4096x1.Idx) (i : S524288x1.Idx)
    (h0 : ∀ d : Fin 64, x0 (ix2 (j 0) d) = X (ix2 (i 0) d)) (h1 : x1 = C) (h2 : x2 = W) (h3 : x3 = B) :
    k0_pay1 (F := Ideal) x0 x1 x2 x3 j = Rbf.G X C W B i := by
  obtain ⟨p, u, rfl⟩ : ∃ (p : Fin 4096) (u : Fin 1), j = ix2 p u := ⟨j 0, j 1, eq_ix2 j⟩
  subst h1 h2 h3
  rw [RowValue.pay_row]
  unfold Rbf.G
  exact congrArg (fun x => Rbf.row x (fun h d => x1 (ix2 h d)) (fun h => x2 (ix2 (0 : Fin 1) h)) (x3 (ix1 (0 : Fin 1))))
    (funext fun d => h0 d)

/-- The printed index maps over the grid: the data window moves down the rows with the result window, every other
    window stays at block zero, and the result's block index stays below 128. -/
theorem idx_facts : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0
    ∧ win0_4.index t (1 : Fin 2) = 0 ∧ win0_4.index t (0 : Fin 2) ≤ 127 :=
  (by decide +kernel : ∀ t : Fin grid0.N, _)

/-- Every one of the 128 row blocks is some point's. -/
theorem idx_onto : ∀ q : Fin 128, ∃ t : Fin cfg0.N, win0_4.index t = ![q.val, 0] :=
  (by decide +kernel : ∀ q : Fin 128, ∃ t : Fin grid0.N, win0_4.index t = ![q.val, 0])

/-- The result array as one function of the argument arrays as the region finds them. -/
abbrev result (c : Dev nD) : S524288x1.Idx → EReal :=
  Rbf.G (V m c main_arg0 : S524288x64.Idx → EReal) (V m c main_arg1 : S256x64.Idx → EReal)
    (V m c main_arg2 : S1x256.Idx → EReal) (V m c main_arg3 : S1.Idx → EReal)

/-- WHAT POINT `t` WRITES BACK is block `t` of `result`. -/
theorem flushed_eq (c : Dev nD) (t : Fin cfg0.N) :
    (dats m 0 c).flushed 4 t = ((cfg0.win 4).blk t).view.read (Elt Ideal) (result m c) := by
  rw [flushed4]
  unfold out0_4
  rw [View.canon_unit_zero zeros2]
  simp only [View.ld_unit_zero (S := S4096x64) zeros2, View.ld_unit_zero (S := S256x64) zeros2,
    View.ld_unit_zero (S := S1x256) zeros2, View.ld_unit_zero (S := S1) zeros1]
  obtain ⟨e0, e1, e2, e3, e4, e5, e6, e7, e8⟩ := idx_facts t
  funext j
  show k0_pay1 (F := Ideal) (iblk m c 0 t) (iblk m c 1 t) (iblk m c 2 t) (iblk m c 3 t) j
    = result m c (((cfg0.win 4).blk t).view.emb j)
  refine block_entry (iblk m c 0 t) (iblk m c 1 t) (iblk m c 2 t) (iblk m c 3 t)
    (V m c main_arg0) (V m c main_arg1) (V m c main_arg2) (V m c main_arg3) j (((cfg0.win 4).blk t).view.emb j) ?_ ?_ ?_ ?_
  · intro d
    show V m c main_arg0 (((cfg0.win 0).blk t).view.emb (ix2 (j 0) d)) = V m c main_arg0 (ix2 ((((cfg0.win 4).blk t).view.emb j) 0) d)
    refine congrArg (V m c main_arg0) (funext fun a => Fin.ext ?_)
    match a with
    | ⟨0, _⟩ =>
      show win0_0.index t (0 : Fin 2) * 4096 + 1 * (j 0).val = win0_4.index t (0 : Fin 2) * 4096 + 1 * (j 0).val
      omega
    | ⟨1, _⟩ =>
      show win0_0.index t (1 : Fin 2) * 64 + 1 * d.val = d.val
      omega
  · funext y
    show V m c main_arg1 (((cfg0.win 1).blk t).view.emb y) = V m c main_arg1 y
    refine congrArg (V m c main_arg1) (funext fun a => Fin.ext ?_)
    match a with
    | ⟨0, _⟩ => show win0_1.index t (0 : Fin 2) * 256 + 1 * (y 0).val = (y 0).val; omega
    | ⟨1, _⟩ => show win0_1.index t (1 : Fin 2) * 64 + 1 * (y 1).val = (y 1).val; omega
  · funext y
    show V m c main_arg2 (((cfg0.win 2).blk t).view.emb y) = V m c main_arg2 y
    refine congrArg (V m c main_arg2) (funext fun a => Fin.ext ?_)
    match a with
    | ⟨0, _⟩ => show win0_2.index t (0 : Fin 2) * 1 + 1 * (y 0).val = (y 0).val; omega
    | ⟨1, _⟩ => show win0_2.index t (1 : Fin 2) * 256 + 1 * (y 1).val = (y 1).val; omega
  · funext y
    show V m c main_arg3 (((cfg0.win 3).blk t).view.emb y) = V m c main_arg3 y
    refine congrArg (V m c main_arg3) (funext fun a => Fin.ext ?_)
    match a with
    | ⟨0, _⟩ => show win0_3.index t (0 : Fin 1) * 1 + 1 * (y 0).val = (y 0).val; omega

/-- A row of the result lies in point `t`'s block iff it lies in the block's range of rows. -/
theorem mem_blk (t : Fin cfg0.N) (i : S524288x1.Idx) :
    i ∈ ((cfg0.win 4).blk t).view.set ↔ ∀ a : Fin 2, win0_4.index t a * S4096x1.size a ≤ (i a).val
      ∧ (i a).val < win0_4.index t a * S4096x1.size a + S4096x1.size a := by
  show i ∈ ((View.whole main_v0).slice (win0_4.rect t)).set ↔ _
  rw [View.set_slice_whole, Rect.mem_set_unit]
  exact Iff.rfl

/-- THE COVER: row `r` lies in the block of the point whose block index is `r / 4096`. -/
theorem cover (i : S524288x1.Idx) :
    ∃ t : Fin cfg0.N, (cfg0.win 4).flush t = true ∧ i ∈ ((cfg0.win 4).blk t).view.set := by
  have hi0 : (i 0).val < 524288 := (i 0).isLt
  have hi1 : (i 1).val < 1 := (i 1).isLt
  obtain ⟨t, ht⟩ := idx_onto ⟨(i 0).val / 4096, by omega⟩
  have q0 : win0_4.index t (0 : Fin 2) = (i 0).val / 4096 := congrFun ht 0
  have q1 : win0_4.index t (1 : Fin 2) = 0 := congrFun ht 1
  refine ⟨t, flush0_4 t, ?_⟩
  rw [mem_blk]
  intro a
  match a with
  | ⟨0, _⟩ =>
    show win0_4.index t (0 : Fin 2) * 4096 ≤ (i 0).val ∧ (i 0).val < win0_4.index t (0 : Fin 2) * 4096 + 4096
    omega
  | ⟨1, _⟩ =>
    show win0_4.index t (1 : Fin 2) * 1 ≤ (i 1).val ∧ (i 1).val < win0_4.index t (1 : Fin 2) * 1 + 1
    omega

/-- THE ARRAY after the run is `result`. -/
theorem final (c : Dev nD) : (dats m 0 c).arrAt 4 cfg0.N = result m c :=
  (dats m 0 c).arrAt_eq_of_cover 4 (result m c) (fun t _ => flushed_eq m c t) cover

/-- The run, read: the result array at the head of every data row, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.ArrValue

end
-- ==== Proof.RefRow.lean ====
/-
  The reference's result, read entry by entry: entry `(n, 0)` is the radial-basis-function head at row `n` of the data.

  The reference forms the squared norms of the data rows and of the centres as sums over the feature axis started
  from zero, the inner products as one contraction over the feature axis of both operands, then the clamped distance,
  the negated exponent and the exponential entry by entry, and contracts the 256 features against the weights,
  adding the bias. Read at `(n, h)`, each stage depends on row `n` of the data and centre `h` only.
-/
import proofs.«137323_j16707422782018_1_alg».proof.Proof.Gen.ReferenceIdeal.Read
import proofs.«137323_j16707422782018_1_alg».proof.Proof.Rbf

noncomputable section

open scoped BigOperators

namespace Cert.ReferenceIdeal.RefValue

open Cert.ReferenceIdeal Cert.ReferenceIdeal.Read Idealize.ShloMosaic Idealize.ShloMosaic.ValueIdx

variable (X : (⟨S524288x64, .f32⟩ : BufTy).Contents (Elt Ideal)) (C : (⟨S256x64, .f32⟩ : BufTy).Contents (Elt Ideal))
  (W : (⟨S1x256, .f32⟩ : BufTy).Contents (Elt Ideal)) (B : (⟨S1, .f32⟩ : BufTy).Contents (Elt Ideal))

/-- The squared norm of data row `n`, kept as a column. -/
theorem xsq (n : Fin 524288) (u : Fin 1) :
    val_main_v2 (F := Ideal) X (ix2 n u) = ∑ d : Fin 64, X (ix2 n d) * X (ix2 n d) := by
  rw [val_main_v2_apply, val_main_v1_apply, val_main_cst_apply]
  refine (Rbf.zero_init_add _).trans (Finset.sum_congr rfl fun d _ => ?_)
  rw [val_main_v0_apply]
  have e : idx_main_v1 (idx_main_v2 (ix2 n u)) d = ix2 n d :=
    funext fun a => Fin.ext (by match a with | ⟨0, _⟩ => rfl | ⟨1, _⟩ => rfl)
  rw [e]; rfl

/-- The squared norm of centre `h`, kept as a row. -/
theorem csq (u : Fin 1) (h : Fin 256) :
    val_main_v10 (F := Ideal) C (ix2 u h) = ∑ d : Fin 64, C (ix2 h d) * C (ix2 h d) := by
  rw [val_main_v10_apply, val_main_v4_apply, val_main_cst_0_apply]
  refine (Rbf.zero_init_add _).trans (Finset.sum_congr rfl fun d _ => ?_)
  rw [val_main_v3_apply]
  have e : idx_main_v4 (idx_main_v10 (ix2 u h)) d = ix2 h d :=
    funext fun a => Fin.ext (by match a with | ⟨0, _⟩ => rfl | ⟨1, _⟩ => rfl)
  rw [e]; rfl

/-- The inner product of data row `n` with centre `h`. -/
theorem inner (n : Fin 524288) (h : Fin 256) :
    val_main_v5 (F := Ideal) X C (ix2 n h) = ∑ d : Fin 64, X (ix2 n d) * C (ix2 h d) := by
  rw [val_main_v5_apply]
  refine Finset.sum_congr rfl fun d _ => ?_
  have el : lidx_main_v5 (ix2 n h) d = ix2 n d :=
    funext fun a => Fin.ext (by match a with | ⟨0, _⟩ => rfl | ⟨1, _⟩ => rfl)
  have er : ridx_main_v5 (ix2 n h) d = ix2 h d :=
    funext fun a => Fin.ext (by match a with | ⟨0, _⟩ => rfl | ⟨1, _⟩ => rfl)
  rw [el, er]

/-- The Gaussian feature of data row `n` at centre `h`. -/
theorem feature (n : Fin 524288) (h : Fin 256) :
    val_main_v16 (F := Ideal) X C (ix2 n h)
      = Ideal.exp (-(Rbf.dist2 (fun d => X (ix2 n d)) (fun d => C (ix2 h d)))) := by
  have e8 : idx_main_v8 (ix2 n h) = ix2 n (0 : Fin 1) :=
    funext fun a => Fin.ext (by match a with | ⟨0, _⟩ => rfl | ⟨1, _⟩ => rfl)
  have e11 : idx_main_v11 (ix2 n h) = ix2 (0 : Fin 1) h :=
    funext fun a => Fin.ext (by match a with | ⟨0, _⟩ => rfl | ⟨1, _⟩ => rfl)
  rw [val_main_v16_apply, val_main_v15_apply, val_main_v14_apply, val_main_v12_apply, val_main_v9_apply,
    val_main_v7_apply, val_main_v8_apply, val_main_v11_apply, val_main_v13_apply, val_main_v6_apply,
    val_main_cst_1_apply, val_main_cst_2_apply, e8, e11, xsq, csq, inner]
  rfl

/-- The reference's result is the head, row by row. -/
theorem result_eq : val_main_v21 (F := Ideal) X C W B = Rbf.G X C W B := by
  funext i
  obtain ⟨n, u, rfl⟩ : ∃ (n : Fin 524288) (u : Fin 1), i = ix2 n u := ⟨i 0, i 1, eq_ix2 i⟩
  obtain rfl : u = 0 := Subsingleton.elim _ _
  rw [val_main_v21_apply, val_main_v18_apply, val_main_v20_apply, val_main_v19_apply]
  unfold Rbf.G Rbf.row
  refine congrArg₂ (· + ·) (Finset.sum_congr rfl fun h _ => ?_) ?_
  · have el : lidx_main_v18 (ix2 n (0 : Fin 1)) h = ix2 n h :=
      funext fun a => Fin.ext (by match a with | ⟨0, _⟩ => rfl | ⟨1, _⟩ => rfl)
    have er : ridx_main_v18 (ix2 n (0 : Fin 1)) h = ix2 h (0 : Fin 1) :=
      funext fun a => Fin.ext (by match a with | ⟨0, _⟩ => rfl | ⟨1, _⟩ => rfl)
    have e17 : idx_main_v17 (ix2 h (0 : Fin 1)) = ix2 (0 : Fin 1) h :=
      funext fun a => Fin.ext (by match a with | ⟨0, _⟩ => rfl | ⟨1, _⟩ => rfl)
    rw [el, er, feature, val_main_v17_apply, e17]
  · exact congrArg B (funext fun a => Fin.ext (by match a with | ⟨0, _⟩ => rfl))

end Cert.ReferenceIdeal.RefValue

end
-- ==== Proof.lean ====
/-
  A radial-basis-function head, tiled over the rows of the data, against its plain jnp form.

  For data `X : [524288, 64]`, centres `C : [256, 64]`, weights `w : [1, 256]` and a bias `b : [1]`, both programs compute,
  for every data row `n`,
      out[n, 0] = Σ_h exp(−max(‖X[n]‖² − 2·⟨X[n], C[h]⟩ + ‖C[h]‖², 0)) · w[0, h] + b[0].
  The kernel takes 4096 rows per grid point; the reference works on the whole arrays. On the extended reals the two
  agree entry by entry with no law beyond re-indexing finite sums: narrowing a float format is the identity, a
  matrix product into a zero accumulator and a host contraction are the same sum of products, a sum started from
  zero is the sum, and the kernel's `0 − d` is the reference's `−d` (also at the infinities). Finiteness of the
  inputs is never used.

  The value is assembled in four steps: the head as one function of the arrays (`Rbf.G`); the kernel's stored block
  read at a row (`RowValue.pay_row`); the 128 blocks as one array (`ArrValue.run`); the reference's result read at a
  row (`RefValue.result_eq`). The kernel made no idealizing rewrite, so there is nothing to preserve.
-/
import proofs.«137323_j16707422782018_1_alg».proof.Defs
import proofs.«137323_j16707422782018_1_alg».proof.Proof.Gen.Kernel
import proofs.«137323_j16707422782018_1_alg».proof.Proof.Gen.Kernel.Skeleton
import proofs.«137323_j16707422782018_1_alg».proof.Proof.Gen.Kernel.Launch
import proofs.«137323_j16707422782018_1_alg».proof.Proof.Gen.Kernel.Points
import proofs.«137323_j16707422782018_1_alg».proof.Proof.Gen.Kernel.Frame
import proofs.«137323_j16707422782018_1_alg».proof.Proof.Gen.KernelIdeal
import proofs.«137323_j16707422782018_1_alg».proof.Proof.Gen.KernelIdeal.Skeleton
import proofs.«137323_j16707422782018_1_alg».proof.Proof.Gen.KernelIdeal.Launch
import proofs.«137323_j16707422782018_1_alg».proof.Proof.Gen.KernelIdeal.Points
import proofs.«137323_j16707422782018_1_alg».proof.Proof.Gen.KernelIdeal.Frame
import proofs.«137323_j16707422782018_1_alg».proof.Proof.Gen.ReferenceIdeal
import proofs.«137323_j16707422782018_1_alg».proof.Proof.Gen.Pre_finite_inputs
import proofs.«137323_j16707422782018_1_alg».proof.Proof.Gen.KernelIdeal.Value
import proofs.«137323_j16707422782018_1_alg».proof.Proof.Gen.ReferenceIdeal.Run
import proofs.«137323_j16707422782018_1_alg».proof.Proof.Gen.ReferenceIdeal.Read
import proofs.«137323_j16707422782018_1_alg».proof.Proof.KernelArr
import proofs.«137323_j16707422782018_1_alg».proof.Proof.RefRow
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the result array at the head of every data row. -/
theorem algebraic : Cert.algebraic_KernelIdeal_ReferenceIdeal := by
  intro m ρ m' ρ' _ hagree
  refine ⟨fun c => Cert.KernelIdeal.ArrValue.result m c, Cert.KernelIdeal.ArrValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
